-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048 : Shape := ⟨2, ![32, 2048]⟩
abbrev S2048x2048 : Shape := ⟨2, ![2048, 2048]⟩
abbrev S_ : Shape := ⟨0, ![]⟩

class Facts : Prop where
  bcast_S_S32x2048 : S_.BroadcastsInDim S32x2048 (![] : Fin 0 → Fin S32x2048.rank)
  reducesTo_S32x2048_S_d0_1 : S32x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn_part1 {F : FTy → Type} [FloatOps F] (main_v13 : IVec S_ 1) (main_v16 : IVec S32x2048 1) : IVec S_ 1 :=
  let main_c_5 : IVec S_ 1 := constantI S_ 1 1#1
  let main_v17 : IVec S_ 1 := (fun x v => Host.reduce IntOp.andi x v reducesTo_S32x2048_S_d0_1 h_S_) main_v16 main_c_5
  let main_v18 : IVec S_ 1 := andi main_v13 main_v17
  main_v18

def fn {F : FTy → Type} [FloatOps F] (main_arg0 : FVec F S32x2048 .f32) (main_arg1 : FVec F S2048x2048 .f32) (main_arg2 : FVec F S32x2048 .f32) (main_arg3 : FVec F S32x2048 .f32) : IVec S_ 1 :=
  let main_v0 : FVec F S32x2048 .f32 := Host.absf main_arg0
  let main_cst : FVec F S_ .f32 := constant S_ .f32 0x7F800000#32
  let main_v1 : FVec F S32x2048 .f32 := broadcastInDim S32x2048 ![] bcast_S_S32x2048 main_cst
  let main_v2 : IVec S32x2048 1 := cmpf .olt main_v0 main_v1
  let main_c : IVec S_ 1 := constantI S_ 1 1#1
  let main_v3 : IVec S_ 1 := (fun x v => Host.reduce IntOp.andi x v reducesTo_S32x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S32x2048 .f32 := Host.absf main_arg2
  let main_cst_2 : FVec F S_ .f32 := constant S_ .f32 0x7F800000#32
  let main_v10 : FVec F S32x2048 .f32 := broadcastInDim S32x2048 ![] bcast_S_S32x2048 main_cst_2
  let main_v11 : IVec S32x2048 1 := cmpf .olt main_v9 main_v10
  let main_c_3 : IVec S_ 1 := constantI S_ 1 1#1
  let main_v12 : IVec S_ 1 := (fun x v => Host.reduce IntOp.andi x v reducesTo_S32x2048_S_d0_1 h_S_) main_v11 main_c_3
  let main_v13 : IVec S_ 1 := andi main_v8 main_v12
  let main_v14 : FVec F S32x2048 .f32 := Host.absf main_arg3
  let main_cst_4 : FVec F S_ .f32 := constant S_ .f32 0x7F800000#32
  let main_v15 : FVec F S32x2048 .f32 := broadcastInDim S32x2048 ![] bcast_S_S32x2048 main_cst_4
  let main_v16 : IVec S32x2048 1 := cmpf .olt main_v14 main_v15
  fn_part1 (F := F) main_v13 main_v16
-- ==== Kernel.lean ====
abbrev S32x2048 : Shape := ⟨2, ![32, 2048]⟩
abbrev S2048x2048 : Shape := ⟨2, ![2048, 2048]⟩
abbrev S256x2048 : Shape := ⟨2, ![256, 2048]⟩
abbrev S32x256 : Shape := ⟨2, ![32, 256]⟩
abbrev S2048x256 : Shape := ⟨2, ![2048, 256]⟩
abbrev S256x32 : Shape := ⟨2, ![256, 32]⟩

abbrev nBuf : Space → Nat
  | .hbm => 6
  | .vmem => 10
  | .smem => 0
  | _ => 0

abbrev bufTy : (tb : Table) → Fin (tcTables nBuf tb) → BufTy
  | .hbm, ⟨0, _⟩ => ⟨S32x2048, .f32⟩
  | .hbm, ⟨1, _⟩ => ⟨S2048x2048, .f32⟩
  | .hbm, ⟨2, _⟩ => ⟨S32x2048, .f32⟩
  | .hbm, ⟨3, _⟩ => ⟨S32x2048, .f32⟩
  | .hbm, ⟨4, _⟩ => ⟨S32x2048, .f32⟩
  | .hbm, ⟨5, _⟩ => ⟨S2048x2048, .f32⟩
  | .local _ .vmem, ⟨0, _⟩ => ⟨S32x2048, .f32⟩
  | .local _ .vmem, ⟨1, _⟩ => ⟨S256x2048, .f32⟩
  | .local _ .vmem, ⟨2, _⟩ => ⟨S256x2048, .f32⟩
  | .local _ .vmem, ⟨3, _⟩ => ⟨S32x2048, .f32⟩
  | .local _ .vmem, ⟨4, _⟩ => ⟨S32x256, .f32⟩
  | .local _ .vmem, ⟨5, _⟩ => ⟨S32x256, .f32⟩
  | .local _ .vmem, ⟨6, _⟩ => ⟨S32x256, .f32⟩
  | .local _ .vmem, ⟨7, _⟩ => ⟨S32x256, .f32⟩
  | .local _ .vmem, ⟨8, _⟩ => ⟨S256x2048, .f32⟩
  | .local _ .vmem, ⟨9, _⟩ => ⟨S256x2048, .f32⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S32x2048_S32x2048_0_0 : ∀ a, (![0, 0] : Fin 2 → Nat) a + S32x2048.size a ≤ S32x2048.size a
  h_S32x2048 : 0 < S32x2048.numel
  inb_S256x2048_S256x2048_0_0 : ∀ a, (![0, 0] : Fin 2 → Nat) a + S256x2048.size a ≤ S256x2048.size a
  h_S256x2048 : 0 < S256x2048.numel
  inb_S32x256_S32x256_0_0 : ∀ a, (![0, 0] : Fin 2 → Nat) a + S32x256.size a ≤ S32x256.size a
  h_S32x256 : 0 < S32x256.numel
  transposes_S256x2048_p1_0_S2048x256 : S256x2048.Transposes [1, 0] S2048x256
  natLt_1_32 : 1 < 32
  transposes_S32x256_p1_0_S256x32 : S32x256.Transposes [1, 0] S256x32
  dot_S32x2048_S2048x256_S32x256_1_0_0_1_n_n_wf : DotDims.WF S32x2048 S2048x256 S32x256 [1] [0] [0] [1] [] []
  dot_S256x32_S32x2048_S256x2048_1_0_0_1_n_n_wf : DotDims.WF S256x32 S32x2048 S256x2048 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x2048.size a ≤ S32x2048.size a
  hwx0_0 : ∀ i : grid0.Coords, EltTy.bits .f32 = 32 ∨ (Rect.block (s := S32x2048) S32x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S2048x2048.size a
  hwx0_1 : ∀ i : grid0.Coords, EltTy.bits .f32 = 32 ∨ (Rect.block (s := S2048x2048) S256x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x2048.size a ≤ S32x2048.size a
  hwx0_2 : ∀ i : grid0.Coords, EltTy.bits .f32 = 32 ∨ (Rect.block (s := S32x2048) S32x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x256.size a ≤ S32x2048.size a
  hwx0_3 : ∀ i : grid0.Coords, EltTy.bits .f32 = 32 ∨ (Rect.block (s := S32x2048) S32x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x256.size a ≤ S32x2048.size a
  hwx0_4 : ∀ i : grid0.Coords, EltTy.bits .f32 = 32 ∨ (Rect.block (s := S32x2048) S32x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x2048.size a ≤ S2048x2048.size a
  hwx0_5 : ∀ i : grid0.Coords, EltTy.bits .f32 = 32 ∨ (Rect.block (s := S2048x2048) S256x2048.size (cc0_transform_5 i) (hinb0_5 i)).WholeWords (EltTy.packing .f32)

variable [Facts₀]

def dot_S32x2048_S2048x256_S32x256_1_0_0_1_n_n : DotDims S32x2048 S2048x256 S32x256 where
  lhsContracting := [1]
  rhsContracting := [0]
  lhsNonContracting := [0]
  rhsNonContracting := [1]
  lhsBatch := []
  rhsBatch := []
  wf := dot_S32x2048_S2048x256_S32x256_1_0_0_1_n_n_wf
def dot_S256x32_S32x2048_S256x2048_1_0_0_1_n_n : DotDims S256x32 S32x2048 S256x2048 where
  lhsContracting := [1]
  rhsContracting := [0]
  lhsNonContracting := [0]
  rhsNonContracting := [1]
  lhsBatch := []
  rhsBatch := []
  wf := dot_S256x32_S32x2048_S256x2048_1_0_0_1_n_n_wf

abbrev win0_0 : Pipeline.Window sig grid0 :=
  Pipeline.Window.ofSpec (Memref.whole main_arg0) S32x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S32x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x2048 : Shape := ⟨2, ![32, 2048]⟩
abbrev S2048x2048 : Shape := ⟨2, ![2048, 2048]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S2048x2048, .f32⟩
  | .hbm, ⟨2, _⟩ => ⟨S32x2048, .f32⟩
  | .hbm, ⟨3, _⟩ => ⟨S32x2048, .f32⟩
  | .hbm, ⟨4, _⟩ => ⟨S2048x2048, .f32⟩
  | .hbm, ⟨5, _⟩ => ⟨S32x2048, .f32⟩
  | .hbm, ⟨6, _⟩ => ⟨S_, .f32⟩
  | .hbm, ⟨7, _⟩ => ⟨S32x2048, .f32⟩
  | .hbm, ⟨8, _⟩ => ⟨S32x2048, .i1⟩
  | .hbm, ⟨9, _⟩ => ⟨S32x2048, .f32⟩
  | .hbm, ⟨10, _⟩ => ⟨S_, .f32⟩
  | .hbm, ⟨11, _⟩ => ⟨S32x2048, .f32⟩
  | .hbm, ⟨12, _⟩ => ⟨S32x2048, .f32⟩
  | .hbm, ⟨13, _⟩ => ⟨S32x2048, .f32⟩
  | .hbm, ⟨14, _⟩ => ⟨S32x2048, .f32⟩
  | .hbm, ⟨15, _⟩ => ⟨S_, .f32⟩
  | .hbm, ⟨16, _⟩ => ⟨S32x2048, .f32⟩
  | .hbm, ⟨17, _⟩ => ⟨S32x2048, .f32⟩
  | .hbm, ⟨18, _⟩ => ⟨S32x2048, .f32⟩
  | .hbm, ⟨19, _⟩ => ⟨S32x2048, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩

abbrev nD : Nat := 1
abbrev τ : Topo := Topo.v7x

variable {F : FTy → Type} [FloatOps F]

class Facts₀ : Prop where
  transposes_S2048x2048_S2048x2048_1_0 : S2048x2048.Transposes [1, 0] S2048x2048
  bcast_S_S32x2048 : S_.BroadcastsInDim S32x2048 (![] : Fin 0 → Fin S32x2048.rank)
  bcast_S_S2048x2048 : S_.BroadcastsInDim S2048x2048 (![] : Fin 0 → Fin S2048x2048.rank)
  dot_S32x2048_S2048x2048_S32x2048_1_0_0_1_n_n_wf : DotDims.WF S32x2048 S2048x2048 S32x2048 [1] [0] [0] [1] [] []
  dot_S32x2048_S32x2048_S2048x2048_0_0_1_1_n_n_wf : DotDims.WF S32x2048 S32x2048 S2048x2048 [0] [0] [1] [1] [] []

variable [Facts₀]

def dot_S32x2048_S2048x2048_S32x2048_1_0_0_1_n_n : DotDims S32x2048 S2048x2048 S32x2048 where
  lhsContracting := [1]
  rhsContracting := [0]
  lhsNonContracting := [0]
  rhsNonContracting := [1]
  lhsBatch := []
  rhsBatch := []
  wf := dot_S32x2048_S2048x2048_S32x2048_1_0_0_1_n_n_wf
def dot_S32x2048_S32x2048_S2048x2048_0_0_1_1_n_n : DotDims S32x2048 S32x2048 S2048x2048 where
  lhsContracting := [0]
  rhsContracting := [0]
  lhsNonContracting := [1]
  rhsNonContracting := [1]
  lhsBatch := []
  rhsBatch := []
  wf := dot_S32x2048_S32x2048_S2048x2048_0_0_1_1_n_n_wf

class Facts : Prop extends Facts₀ where

variable [Facts]
-- ==== Proof.LibRealValued.lean ====
/-
  Extended reals that are real numbers.

  An extended real is REAL when it is the image of a real number, that is, neither of the two infinities. The real
  values are closed under the field operations, under maximum and minimum, under a quotient by a non-zero real and
  under finite sums. On real values the extended reals are a commutative ring, so the distributive law, which fails
  at the infinities (a negative factor times ⊤ + ⊥ is ⊤, while the sum of the two products is ⊥), holds.
-/
import Idealize.ShloMosaic.PureOps.Ideal

noncomputable section

namespace Cert.RealValued

open Idealize.ShloMosaic

/-- The extended real `a` is a real number. -/
def IsReal (a : EReal) : Prop := ∃ r : ℝ, a = (r : EReal)

theorem IsReal.coe (r : ℝ) : IsReal (r : EReal) := ⟨r, rfl⟩

theorem IsReal.add {a b : EReal} (ha : IsReal a) (hb : IsReal b) : IsReal (a + b) := by
  obtain ⟨r, rfl⟩ := ha
  obtain ⟨s, rfl⟩ := hb
  exact ⟨r + s, (EReal.coe_add r s).symm⟩

theorem IsReal.neg {a : EReal} (ha : IsReal a) : IsReal (-a) := by
  obtain ⟨r, rfl⟩ := ha
  exact ⟨-r, (EReal.coe_neg r).symm⟩

theorem IsReal.sub {a b : EReal} (ha : IsReal a) (hb : IsReal b) : IsReal (a - b) := by
  obtain ⟨r, rfl⟩ := ha
  obtain ⟨s, rfl⟩ := hb
  exact ⟨r - s, (EReal.coe_sub r s).symm⟩

theorem IsReal.mul {a b : EReal} (ha : IsReal a) (hb : IsReal b) : IsReal (a * b) := by
  obtain ⟨r, rfl⟩ := ha
  obtain ⟨s, rfl⟩ := hb
  exact ⟨r * s, (EReal.coe_mul r s).symm⟩

theorem IsReal.max {a b : EReal} (ha : IsReal a) (hb : IsReal b) : IsReal (max a b) := by
  rcases le_total a b with h | h
  · rw [max_eq_right h]; exact hb
  · rw [max_eq_left h]; exact ha

theorem IsReal.min {a b : EReal} (ha : IsReal a) (hb : IsReal b) : IsReal (min a b) := by
  rcases le_total a b with h | h
  · rw [min_eq_left h]; exact ha
  · rw [min_eq_right h]; exact hb

/-- The quotient of a real value by a non-zero real number is real: it is the product with the reciprocal. -/
theorem IsReal.div_coe {a : EReal} {y : ℝ} (hy : y ≠ 0) (ha : IsReal a) : IsReal (Ideal.div a (y : EReal)) := by
  rw [Ideal.div_coe hy]
  exact ha.mul ⟨_, rfl⟩

/-- A finite sum of real values is real. -/
theorem IsReal.sum {ι : Type*} (s : Finset ι) (f : ι → EReal) : (∀ i ∈ s, IsReal (f i)) → IsReal (∑ i ∈ s, f i) := by
  classical
  refine Finset.induction_on s (fun _ => ⟨0, by simp⟩) ?_
  intro a s ha ih h
  rw [Finset.sum_insert ha]
  exact (h a (Finset.mem_insert_self a s)).add (ih fun i hi => h i (Finset.mem_insert_of_mem hi))

/-- On real values: `(-c) · d + c · p = c · (p - d)`. -/
theorem neg_mul_add_mul_eq_mul_sub {c p d : EReal} (hc : IsReal c) (hp : IsReal p) (hd : IsReal d) :
    -c * d + c * p = c * (p - d) := by
  obtain ⟨c, rfl⟩ := hc
  obtain ⟨p, rfl⟩ := hp
  obtain ⟨d, rfl⟩ := hd
  rw [← EReal.coe_neg, ← EReal.coe_mul, ← EReal.coe_mul, ← EReal.coe_add, ← EReal.coe_sub, ← EReal.coe_mul]
  congr 1
  ring

end Cert.RealValued

end
-- ==== Proof.Consts.lean ====
/-
  The three float constants of the update rule, as the real numbers their patterns denote: the firing threshold and
  the upper clamp `1`, the lower clamp `-1`, and the trace time constant `2`.
-/
import Idealize.ShloMosaic.PureOps.Ideal

noncomputable section

namespace Cert.Consts

open Idealize.ShloMosaic

theorem ofBits_one : Ideal.ofBits .f32 0x3F800000#32 = ((1 : ℝ) : EReal) := by
  simp [Ideal.ofBits, Ideal.ieee, -EReal.coe_mul]; norm_num

theorem ofBits_neg_one : Ideal.ofBits .f32 0xBF800000#32 = ((-1 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

end Cert.Consts

end
-- ==== Proof.Spec.lean ====
/-
  The spike-timing update, index by index, as functions of the four argument arrays over the extended reals.

  Batch `b` drives post neuron `j` with the current `∑ₖ x[b,k] · W[j,k]`; the neuron fires (spike 1, else 0) when the
  current reaches the threshold 1. Each trace decays by half of itself (`v - v/2`) and takes up the new event: the
  pre trace takes `x`, the post trace the spike. The weight `W[j,q]`, clamped to [-1, 1], is moved by the clamped
  weight times (potentiation - depression), where potentiation is `∑_b spike[b,j] · pre[b,q]` and depression
  `∑_b post[b,j] · x[b,q]`.

  The update is written in two arrangements: FACTORED, `c · (P - D)`, and EXPANDED, `(-c) · D + c · P`. They agree
  when all inputs are real numbers, because then `c`, `P` and `D` are real and the distributive law holds; at an
  infinite input it can fail, so the agreement takes the inputs' finiteness.
-/
import Idealize.ShloMosaic.PureOps.Ideal
import Idealize.ShloMosaic.Lib.ValueIdx
import proofs.«116546_j22308060135454_1_alg».proof.Proof.LibRealValued
import proofs.«116546_j22308060135454_1_alg».proof.Proof.Consts

noncomputable section

namespace Cert.Stdp

open Idealize.ShloMosaic Idealize.ShloMosaic.ValueIdx Cert.RealValued

/-- Activity arrays: batch × neuron. -/
abbrev ActS : Shape := ⟨2, ![32, 2048]⟩
/-- The weight array: post neuron × pre neuron. -/
abbrev WtS : Shape := ⟨2, ![2048, 2048]⟩

variable (x : ActS.Idx → EReal) (W : WtS.Idx → EReal) (tpre tpost : ActS.Idx → EReal)

/-- The current into post neuron `j` for batch `b`. -/
def current (b : Fin 32) (j : Fin 2048) : EReal := ∑ k : Fin 2048, x (ix2 b k) * W (ix2 j k)

/-- A current as a spike: 1 when it reaches the threshold 1, else 0. -/
def fires (cur : EReal) : EReal :=
  FloatOps.uitofp (F := Ideal) .f32 (FloatOps.cmpf (F := Ideal) (φ := .f32) .oge cur (Ideal.ofBits .f32 0x3F800000#32))

/-- The spike of post neuron `j` for batch `b`. -/
def spike (b : Fin 32) (j : Fin 2048) : EReal := fires (current x W b j)

/-- A trace value after its decay with time constant 2. -/
def decay (v : EReal) : EReal := v - Ideal.div v (Ideal.ofBits .f32 0x40000000#32)

/-- The pre trace after the step. -/
def preTrace (b : Fin 32) (q : Fin 2048) : EReal := decay (tpre (ix2 b q)) + x (ix2 b q)

/-- The post trace after the step. -/
def postTrace (b : Fin 32) (j : Fin 2048) : EReal := decay (tpost (ix2 b j)) + spike x W b j

/-- A weight clamped to [-1, 1]. -/
def clamp (w : EReal) : EReal := min (Ideal.ofBits .f32 0x3F800000#32) (max (Ideal.ofBits .f32 0xBF800000#32) w)

/-- Potentiation of the weight from pre neuron `q` to post neuron `j`. -/
def potentiation (j q : Fin 2048) : EReal := ∑ b : Fin 32, spike x W b j * preTrace x tpre b q

/-- Depression of the weight from pre neuron `q` to post neuron `j`. -/
def depression (j q : Fin 2048) : EReal := ∑ b : Fin 32, postTrace x W tpost b j * x (ix2 b q)

/-- The weight update, factored. -/
def dwFactored (j q : Fin 2048) : EReal :=
  clamp (W (ix2 j q)) * (potentiation x W tpre j q - depression x W tpost j q)

/-- The weight update, expanded. -/
def dwExpanded (j q : Fin 2048) : EReal :=
  -clamp (W (ix2 j q)) * depression x W tpost j q + clamp (W (ix2 j q)) * potentiation x W tpre j q

/-- The spike array. -/
def spikeArr : ActS.Idx → EReal := fun i => spike x W (i 0) (i 1)

/-- The weight-update array, factored. -/
def dwArr : WtS.Idx → EReal := fun i => dwFactored x W tpre tpost (i 0) (i 1)

/-- The weight-update array, expanded. -/
def dwArrExpanded : WtS.Idx → EReal := fun i => dwExpanded x W tpre tpost (i 0) (i 1)

/-! ## Real inputs give real values -/

theorem fires_real (cur : EReal) : IsReal (fires cur) := ⟨_, rfl⟩

theorem decay_real {v : EReal} (hv : IsReal v) : IsReal (decay v) := by
  unfold decay
  rw [Cert.Consts.ofBits_two]
  exact hv.sub (hv.div_coe (by norm_num))

theorem clamp_real {w : EReal} (hw : IsReal w) : IsReal (clamp w) := by
  unfold clamp
  rw [Cert.Consts.ofBits_one, Cert.Consts.ofBits_neg_one]
  exact (IsReal.coe 1).min ((IsReal.coe (-1)).max hw)

variable {x W tpre tpost}

theorem potentiation_real (hx : ∀ i, IsReal (x i)) (hp : ∀ i, IsReal (tpre i)) (j q : Fin 2048) :
    IsReal (potentiation x W tpre j q) :=
  IsReal.sum _ _ fun b _ => (fires_real _).mul ((decay_real (hp _)).add (hx _))

theorem depression_real (hx : ∀ i, IsReal (x i)) (hq : ∀ i, IsReal (tpost i)) (j q : Fin 2048) :
    IsReal (depression x W tpost j q) :=
  IsReal.sum _ _ fun b _ => ((decay_real (hq _)).add (fires_real _)).mul (hx _)

/-- THE LAW: on real inputs the expanded update is the factored one. -/
theorem dwArrExpanded_eq_dwArr (hx : ∀ i, IsReal (x i)) (hW : ∀ i, IsReal (W i)) (hp : ∀ i, IsReal (tpre i))
    (hq : ∀ i, IsReal (tpost i)) : dwArrExpanded x W tpre tpost = dwArr x W tpre tpost :=
  funext fun i => neg_mul_add_mul_eq_mul_sub (clamp_real (hW _)) (potentiation_real hx hp _ _) (depression_real hx hq _ _)

end Cert.Stdp

end
-- ==== Proof.RefIsSpec.lean ====
/-
  The reference computes the update rule: its spike result is the spike array, and its weight result is the weight
  update in the EXPANDED arrangement, `(-c) · D + c · P`.

  Read one operation at a time: the reference's first product contracts `x`'s neuron axis with the transposed
  weight's first axis, which is the current `∑ₖ x[b,k] · W[j,k]`; its two later products contract the batch axis of
  two activity arrays, which are the depression and potentiation sums; the clamp is a minimum of a maximum; the rest
  is pointwise.
-/
import proofs.«116546_j22308060135454_1_alg».proof.Proof.Gen.ReferenceIdeal.Read
import proofs.«116546_j22308060135454_1_alg».proof.Proof.Spec

noncomputable section

namespace Cert.Stdp.Ref

open Idealize.ShloMosaic Idealize.ShloMosaic.ValueIdx Cert.ReferenceIdeal Cert.ReferenceIdeal.Read Cert.Stdp

variable (x0 : (⟨S32x2048, .f32⟩ : BufTy).Contents (Elt Ideal)) (x1 : (⟨S2048x2048, .f32⟩ : BufTy).Contents (Elt Ideal))
  (x2 x3 : (⟨S32x2048, .f32⟩ : BufTy).Contents (Elt Ideal))

/-! ## The operand indices of the three products, by coordinates -/

theorem cur_lhs (b : Fin 32) (j k : Fin 2048) : lidx_main_v1 (ix2 b j) k = ix2 b k :=
  funext fun a => Fin.ext (by match a with | ⟨0, _⟩ => rfl | ⟨1, _⟩ => rfl)

theorem cur_rhs (b : Fin 32) (j k : Fin 2048) : idx_main_v0 (ridx_main_v1 (ix2 b j) k) = ix2 j k :=
  funext fun a => Fin.ext (by match a with | ⟨0, _⟩ => rfl | ⟨1, _⟩ => rfl)

theorem dep_lhs (j q : Fin 2048) (k : Fin 32) : lidx_main_v15 (ix2 j q) k = ix2 k j :=
  funext fun a => Fin.ext (by match a with | ⟨0, _⟩ => rfl | ⟨1, _⟩ => rfl)

theorem dep_rhs (j q : Fin 2048) (k : Fin 32) : ridx_main_v15 (ix2 j q) k = ix2 k q :=
  funext fun a => Fin.ext (by match a with | ⟨0, _⟩ => rfl | ⟨1, _⟩ => rfl)

theorem pot_lhs (j q : Fin 2048) (k : Fin 32) : lidx_main_v17 (ix2 j q) k = ix2 k j :=
  funext fun a => Fin.ext (by match a with | ⟨0, _⟩ => rfl | ⟨1, _⟩ => rfl)

theorem pot_rhs (j q : Fin 2048) (k : Fin 32) : ridx_main_v17 (ix2 j q) k = ix2 k q :=
  funext fun a => Fin.ext (by match a with | ⟨0, _⟩ => rfl | ⟨1, _⟩ => rfl)

/-! ## Stage by stage -/

/-- The first product is the current. -/
theorem current_stage (b : Fin 32) (j : Fin 2048) : val_main_v1 (F := Ideal) x0 x1 (ix2 b j) = current x0 x1 b j := by
  rw [val_main_v1_apply]
  exact Finset.sum_congr rfl fun k _ => by rw [val_main_v0_apply, cur_lhs, cur_rhs]

/-- The compared and converted current is the spike. -/
theorem spike_stage (b : Fin 32) (j : Fin 2048) : val_main_v4 (F := Ideal) x0 x1 (ix2 b j) = spike x0 x1 b j := by
  rw [val_main_v4_apply, val_main_v3_apply, current_stage, val_main_v2_apply, val_main_cst_apply]
  rfl

theorem preTrace_stage (b : Fin 32) (q : Fin 2048) : val_main_v8 (F := Ideal) x0 x2 (ix2 b q) = preTrace x0 x2 b q := by
  rw [val_main_v8_apply, val_main_v7_apply, val_main_v6_apply, val_main_v5_apply, val_main_cst_0_apply]
  rfl

theorem postTrace_stage (b : Fin 32) (j : Fin 2048) :
    val_main_v12 (F := Ideal) x0 x1 x3 (ix2 b j) = postTrace x0 x1 x3 b j := by
  rw [val_main_v12_apply, val_main_v11_apply, val_main_v10_apply, val_main_v9_apply, val_main_cst_1_apply, spike_stage]
  rfl

theorem clamp_stage (j q : Fin 2048) : val_main_v13 (F := Ideal) x1 (ix2 j q) = clamp (x1 (ix2 j q)) := by
  rw [val_main_v13_apply, val_main_call0_v4_apply, val_main_call0_v3_apply, val_main_cst_3_apply,
    val_main_call0_v2_apply, val_main_call0_v1_apply, val_main_call0_v0_apply, val_main_cst_2_apply]
  rfl

theorem depression_stage (j q : Fin 2048) :
    val_main_v15 (F := Ideal) x0 x1 x3 (ix2 j q) = depression x0 x1 x3 j q := by
  rw [val_main_v15_apply]
  exact Finset.sum_congr rfl fun k _ => by rw [dep_lhs, dep_rhs, postTrace_stage]

theorem potentiation_stage (j q : Fin 2048) :
    val_main_v17 (F := Ideal) x0 x1 x2 (ix2 j q) = potentiation x0 x1 x2 j q := by
  rw [val_main_v17_apply]
  exact Finset.sum_congr rfl fun k _ => by rw [pot_lhs, pot_rhs, spike_stage, preTrace_stage]

/-! ## The two results -/

/-- The reference's spike result is the spike array. -/
theorem spike_result : val_main_v4 (F := Ideal) x0 x1 = spikeArr x0 x1 := by
  funext i
  obtain ⟨b, j, rfl⟩ : ∃ (b : Fin 32) (j : Fin 2048), i = ix2 b j := ⟨i 0, i 1, eq_ix2 i⟩
  exact spike_stage x0 x1 b j

/-- The reference's weight result is the expanded weight update. -/
theorem dw_result : val_main_v19 (F := Ideal) x0 x1 x2 x3 = dwArrExpanded x0 x1 x2 x3 := by
  funext i
  obtain ⟨j, q, rfl⟩ : ∃ (j q : Fin 2048), i = ix2 j q := ⟨i 0, i 1, eq_ix2 i⟩
  rw [val_main_v19_apply, val_main_v16_apply, val_main_v14_apply, val_main_v18_apply, clamp_stage, depression_stage,
    potentiation_stage]
  rfl

end Cert.Stdp.Ref

end
-- ==== Proof.KernelPayload.lean ====
/-
  The kernel body's two stored values, read at an index, over one grid point's blocks: `x` and the pre trace whole
  ([32, 2048]), 256 rows of the weight ([256, 2048]) and the matching 256 columns of the post trace ([32, 256]).

  The body forms the block of currents as the product of `x` with the TRANSPOSED weight rows, so its entry (b, j') is
  `∑ₖ x[b,k] · w[j',k]`; it forms the depression and potentiation blocks as products of the TRANSPOSED post-trace and
  spike blocks with `x` and with the new pre trace, contracting the batch axis. Everything else is pointwise.
-/
import proofs.«116546_j22308060135454_1_alg».proof.Proof.Gen.KernelIdeal.Skeleton
import proofs.«116546_j22308060135454_1_alg».proof.Proof.Spec
import Idealize.ShloMosaic.Lib.Pipeline.Value
import Idealize.ShloMosaic.Lib.ValueIdx
import Idealize.ShloMosaic.Lib.KernelVsHost
import Idealize.ShloMosaic.PureOps.Ideal.Laws

noncomputable section

namespace Cert.Stdp.Kern

open Idealize.ShloMosaic Idealize.ShloMosaic.ValueIdx Cert.KernelIdeal Cert.KernelIdeal.Gen Cert.Stdp

/-! ## The product of a [32, 2048] with a [2048, 256] array: operand indices by coordinates -/

theorem lhs_cur_0 (i : S32x256.Idx) (q : dot_S32x2048_S2048x256_S32x256_1_0_0_1_n_n.contr.Idx) :
    (dot_S32x2048_S2048x256_S32x256_1_0_0_1_n_n.lhsIdx i q 0).val = (i 0).val := by
  unfold DotDims.lhsIdx
  rw [dif_neg (show ¬(0 : Fin S32x2048.rank) ∈ dot_S32x2048_S2048x256_S32x256_1_0_0_1_n_n.lhsBatch by decide), dif_pos (show (0 : Fin S32x2048.rank) ∈ dot_S32x2048_S2048x256_S32x256_1_0_0_1_n_n.lhsNonContracting by decide)]
  rfl
theorem lhs_cur_1 (i : S32x256.Idx) (q : dot_S32x2048_S2048x256_S32x256_1_0_0_1_n_n.contr.Idx) :
    (dot_S32x2048_S2048x256_S32x256_1_0_0_1_n_n.lhsIdx i q 1).val = (q ⟨0, by decide⟩).val :=
  dot_S32x2048_S2048x256_S32x256_1_0_0_1_n_n.lhsIdx_val_of_single rfl i q
theorem rhs_cur_0 (i : S32x256.Idx) (q : dot_S32x2048_S2048x256_S32x256_1_0_0_1_n_n.contr.Idx) :
    (dot_S32x2048_S2048x256_S32x256_1_0_0_1_n_n.rhsIdx i q 0).val = (q ⟨0, by decide⟩).val :=
  dot_S32x2048_S2048x256_S32x256_1_0_0_1_n_n.rhsIdx_val_of_single rfl i q
theorem rhs_cur_1 (i : S32x256.Idx) (q : dot_S32x2048_S2048x256_S32x256_1_0_0_1_n_n.contr.Idx) :
    (dot_S32x2048_S2048x256_S32x256_1_0_0_1_n_n.rhsIdx i q 1).val = (i 1).val := by
  unfold DotDims.rhsIdx
  rw [dif_neg (show ¬(1 : Fin S2048x256.rank) ∈ dot_S32x2048_S2048x256_S32x256_1_0_0_1_n_n.rhsBatch by decide), dif_pos (show (1 : Fin S2048x256.rank) ∈ dot_S32x2048_S2048x256_S32x256_1_0_0_1_n_n.rhsNonContracting by decide)]
  rfl

/-- Into a zero accumulator, entry (b, j') of the product is the sum over the shared axis. -/
theorem matmul_cur_apply (prec : Option ContractPrecision) (l : FVec Ideal S32x2048 .f32) (r : FVec Ideal S2048x256 .f32)
    (b : Fin 32) (j' : Fin 256) :
    FloatOps.matmul dot_S32x2048_S2048x256_S32x256_1_0_0_1_n_n prec l r (constant S32x256 .f32 0x00000000#32) (ix2 b j')
      = ∑ k : Fin 2048, l (ix2 b k) * r (ix2 k j') := by
  rw [Ideal.matmul_constant_zero_apply, ← Equiv.sum_comp (contrEquiv1 dot_S32x2048_S2048x256_S32x256_1_0_0_1_n_n 2048 rfl rfl).symm]
  refine Finset.sum_congr rfl fun k _ => ?_
  have hk := contrEquiv1_symm_val dot_S32x2048_S2048x256_S32x256_1_0_0_1_n_n 2048 rfl rfl k
  have el : dot_S32x2048_S2048x256_S32x256_1_0_0_1_n_n.lhsIdx (ix2 b j') ((contrEquiv1 dot_S32x2048_S2048x256_S32x256_1_0_0_1_n_n 2048 rfl rfl).symm k) = ix2 b k := funext fun a => Fin.ext (by
    match a with
    | ⟨0, _⟩ => exact lhs_cur_0 _ _
    | ⟨1, _⟩ => exact (lhs_cur_1 _ _).trans hk)
  have er : dot_S32x2048_S2048x256_S32x256_1_0_0_1_n_n.rhsIdx (ix2 b j') ((contrEquiv1 dot_S32x2048_S2048x256_S32x256_1_0_0_1_n_n 2048 rfl rfl).symm k) = ix2 k j' := funext fun a => Fin.ext (by
    match a with
    | ⟨0, _⟩ => exact (rhs_cur_0 _ _).trans hk
    | ⟨1, _⟩ => exact rhs_cur_1 _ _)
  rw [el, er]

/-! ## The product of a [256, 32] with a [32, 2048] array -/

theorem lhs_bat_0 (i : S256x2048.Idx) (q : dot_S256x32_S32x2048_S256x2048_1_0_0_1_n_n.contr.Idx) :
    (dot_S256x32_S32x2048_S256x2048_1_0_0_1_n_n.lhsIdx i q 0).val = (i 0).val := by
  unfold DotDims.lhsIdx
  rw [dif_neg (show ¬(0 : Fin S256x32.rank) ∈ dot_S256x32_S32x2048_S256x2048_1_0_0_1_n_n.lhsBatch by decide), dif_pos (show (0 : Fin S256x32.rank) ∈ dot_S256x32_S32x2048_S256x2048_1_0_0_1_n_n.lhsNonContracting by decide)]
  rfl
theorem lhs_bat_1 (i : S256x2048.Idx) (q : dot_S256x32_S32x2048_S256x2048_1_0_0_1_n_n.contr.Idx) :
    (dot_S256x32_S32x2048_S256x2048_1_0_0_1_n_n.lhsIdx i q 1).val = (q ⟨0, by decide⟩).val :=
  dot_S256x32_S32x2048_S256x2048_1_0_0_1_n_n.lhsIdx_val_of_single rfl i q
theorem rhs_bat_0 (i : S256x2048.Idx) (q : dot_S256x32_S32x2048_S256x2048_1_0_0_1_n_n.contr.Idx) :
    (dot_S256x32_S32x2048_S256x2048_1_0_0_1_n_n.rhsIdx i q 0).val = (q ⟨0, by decide⟩).val :=
  dot_S256x32_S32x2048_S256x2048_1_0_0_1_n_n.rhsIdx_val_of_single rfl i q
theorem rhs_bat_1 (i : S256x2048.Idx) (q : dot_S256x32_S32x2048_S256x2048_1_0_0_1_n_n.contr.Idx) :
    (dot_S256x32_S32x2048_S256x2048_1_0_0_1_n_n.rhsIdx i q 1).val = (i 1).val := by
  unfold DotDims.rhsIdx
  rw [dif_neg (show ¬(1 : Fin S32x2048.rank) ∈ dot_S256x32_S32x2048_S256x2048_1_0_0_1_n_n.rhsBatch by decide), dif_pos (show (1 : Fin S32x2048.rank) ∈ dot_S256x32_S32x2048_S256x2048_1_0_0_1_n_n.rhsNonContracting by decide)]
  rfl

/-- Into a zero accumulator, entry (j', q) of the product is the sum over the batch. -/
theorem matmul_bat_apply (prec : Option ContractPrecision) (l : FVec Ideal S256x32 .f32) (r : FVec Ideal S32x2048 .f32)
    (j' : Fin 256) (q : Fin 2048) :
    FloatOps.matmul dot_S256x32_S32x2048_S256x2048_1_0_0_1_n_n prec l r (constant S256x2048 .f32 0x00000000#32) (ix2 j' q)
      = ∑ b : Fin 32, l (ix2 j' b) * r (ix2 b q) := by
  rw [Ideal.matmul_constant_zero_apply, ← Equiv.sum_comp (contrEquiv1 dot_S256x32_S32x2048_S256x2048_1_0_0_1_n_n 32 rfl rfl).symm]
  refine Finset.sum_congr rfl fun k _ => ?_
  have hk := contrEquiv1_symm_val dot_S256x32_S32x2048_S256x2048_1_0_0_1_n_n 32 rfl rfl k
  have el : dot_S256x32_S32x2048_S256x2048_1_0_0_1_n_n.lhsIdx (ix2 j' q) ((contrEquiv1 dot_S256x32_S32x2048_S256x2048_1_0_0_1_n_n 32 rfl rfl).symm k) = ix2 j' k := funext fun a => Fin.ext (by
    match a with
    | ⟨0, _⟩ => exact lhs_bat_0 _ _
    | ⟨1, _⟩ => exact (lhs_bat_1 _ _).trans hk)
  have er : dot_S256x32_S32x2048_S256x2048_1_0_0_1_n_n.rhsIdx (ix2 j' q) ((contrEquiv1 dot_S256x32_S32x2048_S256x2048_1_0_0_1_n_n 32 rfl rfl).symm k) = ix2 k q := funext fun a => Fin.ext (by
    match a with
    | ⟨0, _⟩ => exact (rhs_bat_0 _ _).trans hk
    | ⟨1, _⟩ => exact rhs_bat_1 _ _)
  rw [el, er]

/-! ## The two transposes -/

theorem transpose_rows_apply (w : FVec Ideal S256x2048 .f32) (k : Fin 2048) (j' : Fin 256) :
    transpose S2048x256 [1, 0] w transposes_S256x2048_p1_0_S2048x256 (ix2 k j') = w (ix2 j' k) :=
  transpose_apply [1, 0] w transposes_S256x2048_p1_0_S2048x256 (ix2 k j') (ix2 j' k) (fun a => match a with
    | ⟨0, _⟩ => rfl
    | ⟨1, _⟩ => rfl)

theorem transpose_cols_apply (v : FVec Ideal S32x256 .f32) (j' : Fin 256) (b : Fin 32) :
    transpose S256x32 [1, 0] v transposes_S32x256_p1_0_S256x32 (ix2 j' b) = v (ix2 b j') :=
  transpose_apply [1, 0] v transposes_S32x256_p1_0_S256x32 (ix2 j' b) (ix2 b j') (fun a => match a with
    | ⟨0, _⟩ => rfl
    | ⟨1, _⟩ => rfl)

/-! ## The stored values at an index -/

/-- An integer array converted unsigned, at an index. -/
theorem uitofp_apply {s : Shape} {w : Nat} (v : IVec s w) (i : s.Idx) :
    (uitofp .f32 v : FVec Ideal s .f32) i = FloatOps.uitofp (F := Ideal) .f32 (v i) := rfl

/-- The spike block at (b, j'): the current of the block's row j' of the weight, as a spike. -/
theorem spikeBlock_apply (v0 : Vec Ideal S32x2048 .f32) (v1 : Vec Ideal S256x2048 .f32) (b : Fin 32) (j' : Fin 256) :
    k0_pay1 (F := Ideal) v0 v1 (ix2 b j') = fires (∑ k : Fin 2048, v0 (ix2 b k) * v1 (ix2 j' k)) := by
  unfold k0_pay1
  dsimp only
  rw [sitofp_extui_eq_uitofp, uitofp_apply, cmpf_apply, broadcast_apply]
  simp only [matmul]
  rw [matmul_cur_apply]
  have e : (∑ k : Fin 2048, v0 (ix2 b k) * transpose S2048x256 [1, 0] v1 transposes_S256x2048_p1_0_S2048x256 (ix2 k j'))
      = ∑ k : Fin 2048, v0 (ix2 b k) * v1 (ix2 j' k) :=
    Finset.sum_congr rfl fun k _ => by rw [transpose_rows_apply]
  rw [e]
  rfl

/-- The weight-update block at (j', q): the clamped weight times (potentiation - depression), both over the block's
    spikes. -/
theorem dwBlock_apply (v0 : Vec Ideal S32x2048 .f32) (v1 : Vec Ideal S256x2048 .f32) (v2 : Vec Ideal S32x2048 .f32)
    (v3 : Vec Ideal S32x256 .f32) (j' : Fin 256) (q : Fin 2048) :
    k0_pay2 (F := Ideal) v0 v1 v2 v3 (ix2 j' q)
      = clamp (v1 (ix2 j' q))
        * ((∑ b : Fin 32, k0_pay1 (F := Ideal) v0 v1 (ix2 b j') * (decay (v2 (ix2 b q)) + v0 (ix2 b q)))
          - ∑ b : Fin 32, (decay (v3 (ix2 b j')) + k0_pay1 (F := Ideal) v0 v1 (ix2 b j')) * v0 (ix2 b q)) := by
  unfold k0_pay2
  dsimp only
  rw [mulf_apply, minimumf_apply, maximumf_apply, broadcast_apply, broadcast_apply, subf_apply]
  simp only [matmul]
  rw [matmul_bat_apply, matmul_bat_apply]
  unfold clamp
  refine congrArg₂ (· * ·) rfl (congrArg₂ (· - ·) (Finset.sum_congr rfl fun b _ => ?_) (Finset.sum_congr rfl fun b _ => ?_))
  · rw [transpose_cols_apply, addf_apply, subf_apply, divf_apply, broadcast_apply]
    rfl
  · rw [transpose_cols_apply, addf_apply, subf_apply, divf_apply, broadcast_apply]
    rfl

/-! ## A point's stored blocks are blocks of the spike and weight-update arrays

  At the grid point number `n` the loaded blocks are: all of `x` and of the pre trace, rows `256 n …` of the weight,
  columns `256 n …` of the post trace. Stated over any vectors that read the arrays so. -/

section Blocks

variable (X : ActS.Idx → EReal) (Wt : WtS.Idx → EReal) (P Q : ActS.Idx → EReal)
variable (v0 : Vec Ideal S32x2048 .f32) (v1 : Vec Ideal S256x2048 .f32) (v2 : Vec Ideal S32x2048 .f32) (v3 : Vec Ideal S32x256 .f32)
variable (n : Nat)

/-- Entry (b, j') of the point's spike block is the spike of post neuron `256 n + j'`. -/
theorem spikeBlock_eq_spike (h0 : ∀ (b : Fin 32) (k : Fin 2048), v0 (ix2 b k) = X (ix2 b k))
    (h1 : ∀ (j' : Fin 256) (k r : Fin 2048), r.val = 256 * n + j'.val → v1 (ix2 j' k) = Wt (ix2 r k))
    (b : Fin 32) (j' : Fin 256) (r : Fin 2048) (hr : r.val = 256 * n + j'.val) :
    k0_pay1 (F := Ideal) v0 v1 (ix2 b j') = spike X Wt b r := by
  rw [spikeBlock_apply]
  unfold spike current
  exact congrArg fires (Finset.sum_congr rfl fun k _ => by rw [h0, h1 j' k r hr])

/-- The point's spike block is the block of the spike array at columns `256 n …`. -/
theorem spikeBlock_eq (h0 : ∀ (b : Fin 32) (k : Fin 2048), v0 (ix2 b k) = X (ix2 b k))
    (h1 : ∀ (j' : Fin 256) (k r : Fin 2048), r.val = 256 * n + j'.val → v1 (ix2 j' k) = Wt (ix2 r k))
    (y : S32x256.Idx) (i : ActS.Idx) (hi0 : (i 0).val = (y 0).val) (hi1 : (i 1).val = 256 * n + (y 1).val) :
    k0_pay1 (F := Ideal) v0 v1 y = spikeArr X Wt i := by
  obtain ⟨b, j', rfl⟩ : ∃ (b : Fin 32) (j' : Fin 256), y = ix2 b j' := ⟨y 0, y 1, eq_ix2 y⟩
  obtain ⟨b', r, rfl⟩ : ∃ (b' : Fin 32) (r : Fin 2048), i = ix2 b' r := ⟨i 0, i 1, eq_ix2 i⟩
  obtain rfl : b' = b := Fin.ext hi0
  exact spikeBlock_eq_spike X Wt v0 v1 n h0 h1 b' j' r hi1

/-- The point's weight-update block is the block of the factored weight-update array at rows `256 n …`. -/
theorem dwBlock_eq (h0 : ∀ (b : Fin 32) (k : Fin 2048), v0 (ix2 b k) = X (ix2 b k))
    (h1 : ∀ (j' : Fin 256) (k r : Fin 2048), r.val = 256 * n + j'.val → v1 (ix2 j' k) = Wt (ix2 r k))
    (h2 : ∀ (b : Fin 32) (k : Fin 2048), v2 (ix2 b k) = P (ix2 b k))
    (h3 : ∀ (b : Fin 32) (j' : Fin 256) (r : Fin 2048), r.val = 256 * n + j'.val → v3 (ix2 b j') = Q (ix2 b r))
    (y : S256x2048.Idx) (i : WtS.Idx) (hi0 : (i 0).val = 256 * n + (y 0).val) (hi1 : (i 1).val = (y 1).val) :
    k0_pay2 (F := Ideal) v0 v1 v2 v3 y = dwArr X Wt P Q i := by
  obtain ⟨j', q, rfl⟩ : ∃ (j' : Fin 256) (q : Fin 2048), y = ix2 j' q := ⟨y 0, y 1, eq_ix2 y⟩
  obtain ⟨r, q', rfl⟩ : ∃ (r q' : Fin 2048), i = ix2 r q' := ⟨i 0, i 1, eq_ix2 i⟩
  obtain rfl : q' = q := Fin.ext hi1
  have hr : r.val = 256 * n + j'.val := hi0
  rw [dwBlock_apply]
  unfold dwArr dwFactored potentiation depression preTrace postTrace
  rw [h1 j' q' r hr]
  refine congrArg₂ (· * ·) rfl (congrArg₂ (· - ·) (Finset.sum_congr rfl fun b _ => ?_) (Finset.sum_congr rfl fun b _ => ?_))
  · rw [spikeBlock_eq_spike X Wt v0 v1 n h0 h1 b j' r hr, h2, h0]
  · rw [spikeBlock_eq_spike X Wt v0 v1 n h0 h1 b j' r hr, h3 b j' r hr, h0]

end Blocks

end Cert.Stdp.Kern

end
-- ==== Proof.KernelBlocks.lean ====
/-
  From grid points to whole arrays. The grid has 8 points; point `t` reads all of `x` and of the pre trace, rows
  `256 t …` of the weight and columns `256 t …` of the post trace, and writes columns `256 t …` of the spike array
  and rows `256 t …` of the weight update. What it writes is that block of the spike array and of the factored
  weight-update array of the ARGUMENTS; the 8 column blocks tile the first output, the 8 row blocks the second. So
  after the run the two outputs hold those arrays.
-/
import proofs.«116546_j22308060135454_1_alg».proof.Proof.Gen.KernelIdeal.Value
import proofs.«116546_j22308060135454_1_alg».proof.Proof.KernelPayload
import Idealize.ShloMosaic.Lib.Pipeline.Value

noncomputable section

namespace Cert.Stdp.Blocks

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value Cert.Stdp Cert.Stdp.Kern

variable (m : (ℓ : Loc nD τ sig) → Buf (Elt Ideal) ℓ) (ρ : Dev nD → PrngReg)

theorem hz : (![0, 0] : Fin 2 → Nat) = fun _ => 0 := funext fun a => by fin_cases a <;> rfl

/-- The block index of every window at every point: the two resident inputs stay at block (0, 0); the weight and
    the weight update move down the rows with the point; the post trace and the spikes move along the columns. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val
    ∧ win0_4.index t (0 : Fin 2) = 0 ∧ win0_4.index t (1 : Fin 2) = t.val
    ∧ win0_5.index t (0 : Fin 2) = t.val ∧ win0_5.index t (1 : Fin 2) = 0 :=
  (by decide +kernel : ∀ t : Fin grid0.N, _)

/-! ## The input blocks, read from the arrays -/

theorem xblk (c : Dev nD) (t : Fin cfg0.N) (b : Fin 32) (k : Fin 2048) :
    (iblk m c 0 t : Vec Ideal S32x2048 .f32) (ix2 b k) = (V m c main_arg0 : ActS.Idx → EReal) (ix2 b k) := by
  obtain ⟨e0, e1, -⟩ := idx_facts t
  unfold iblk
  rw [View.read_apply]
  show V m c main_arg0 _ = V m c main_arg0 _
  congr 1
  funext a
  apply Fin.ext
  match a with
  | ⟨0, _⟩ => show win0_0.index t (0 : Fin 2) * 32 + 1 * b.val = b.val; omega
  | ⟨1, _⟩ => show win0_0.index t (1 : Fin 2) * 2048 + 1 * k.val = k.val; omega

theorem wblk (c : Dev nD) (t : Fin cfg0.N) (j' : Fin 256) (k r : Fin 2048) (hr : r.val = 256 * t.val + j'.val) :
    (iblk m c 1 t : Vec Ideal S256x2048 .f32) (ix2 j' k) = (V m c main_arg1 : WtS.Idx → EReal) (ix2 r k) := by
  obtain ⟨-, -, e0, e1, -⟩ := idx_facts t
  unfold iblk
  rw [View.read_apply]
  show V m c main_arg1 _ = V m c main_arg1 _
  congr 1
  funext a
  apply Fin.ext
  match a with
  | ⟨0, _⟩ => show win0_1.index t (0 : Fin 2) * 256 + 1 * j'.val = r.val; omega
  | ⟨1, _⟩ => show win0_1.index t (1 : Fin 2) * 2048 + 1 * k.val = k.val; omega

theorem pblk (c : Dev nD) (t : Fin cfg0.N) (b : Fin 32) (k : Fin 2048) :
    (iblk m c 2 t : Vec Ideal S32x2048 .f32) (ix2 b k) = (V m c main_arg2 : ActS.Idx → EReal) (ix2 b k) := by
  obtain ⟨-, -, -, -, e0, e1, -⟩ := idx_facts t
  unfold iblk
  rw [View.read_apply]
  show V m c main_arg2 _ = V m c main_arg2 _
  congr 1
  funext a
  apply Fin.ext
  match a with
  | ⟨0, _⟩ => show win0_2.index t (0 : Fin 2) * 32 + 1 * b.val = b.val; omega
  | ⟨1, _⟩ => show win0_2.index t (1 : Fin 2) * 2048 + 1 * k.val = k.val; omega

theorem qblk (c : Dev nD) (t : Fin cfg0.N) (b : Fin 32) (j' : Fin 256) (r : Fin 2048) (hr : r.val = 256 * t.val + j'.val) :
    (iblk m c 3 t : Vec Ideal S32x256 .f32) (ix2 b j') = (V m c main_arg3 : ActS.Idx → EReal) (ix2 b r) := by
  obtain ⟨-, -, -, -, -, -, e0, e1, -⟩ := idx_facts t
  unfold iblk
  rw [View.read_apply]
  show V m c main_arg3 _ = V m c main_arg3 _
  congr 1
  funext a
  apply Fin.ext
  match a with
  | ⟨0, _⟩ => show win0_3.index t (0 : Fin 2) * 32 + 1 * b.val = b.val; omega
  | ⟨1, _⟩ => show win0_3.index t (1 : Fin 2) * 256 + 1 * j'.val = r.val; omega

/-! ## What a point writes back -/

/-- Point `t` writes back block `t` of the spike array of the arguments. -/
theorem flushed_spike (c : Dev nD) (t : Fin cfg0.N) :
    (dats m 0 c).flushed 4 t
      = ((cfg0.win 4).blk t).view.read (Elt Ideal) (spikeArr (V m c main_arg0) (V m c main_arg1)) := by
  rw [flushed4]
  unfold out0_4
  rw [View.canon_unit_zero hz]
  simp only [View.ld_unit_zero (S := S32x2048) hz, View.ld_unit_zero (S := S256x2048) hz]
  obtain ⟨-, -, -, -, -, -, -, -, e0, e1, -⟩ := idx_facts t
  funext y
  rw [View.read_apply]
  refine spikeBlock_eq (V m c main_arg0) (V m c main_arg1) (iblk m c 0 t) (iblk m c 1 t) t.val (xblk m c t) (wblk m c t) y _ ?_ ?_
  · show win0_4.index t (0 : Fin 2) * 32 + 1 * (y 0).val = (y 0).val
    omega
  · show win0_4.index t (1 : Fin 2) * 256 + 1 * (y 1).val = 256 * t.val + (y 1).val
    omega

/-- Point `t` writes back block `t` of the factored weight-update array of the arguments. -/
theorem flushed_dw (c : Dev nD) (t : Fin cfg0.N) :
    (dats m 0 c).flushed 5 t
      = ((cfg0.win 5).blk t).view.read (Elt Ideal)
          (dwArr (V m c main_arg0) (V m c main_arg1) (V m c main_arg2) (V m c main_arg3)) := by
  rw [flushed5]
  unfold out0_5
  rw [View.canon_unit_zero hz]
  simp only [View.ld_unit_zero (S := S32x2048) hz, View.ld_unit_zero (S := S256x2048) hz, View.ld_unit_zero (S := S32x256) hz]
  obtain ⟨-, -, -, -, -, -, -, -, -, -, e0, e1⟩ := idx_facts t
  funext y
  rw [View.read_apply]
  refine dwBlock_eq (V m c main_arg0) (V m c main_arg1) (V m c main_arg2) (V m c main_arg3) (iblk m c 0 t) (iblk m c 1 t)
    (iblk m c 2 t) (iblk m c 3 t) t.val (xblk m c t) (wblk m c t) (pblk m c t) (qblk m c t) y _ ?_ ?_
  · show win0_5.index t (0 : Fin 2) * 256 + 1 * (y 0).val = 256 * t.val + (y 0).val
    omega
  · show win0_5.index t (1 : Fin 2) * 2048 + 1 * (y 1).val = (y 1).val
    omega

/-! ## The blocks tile the outputs -/

theorem mem_blk_spike (t : Fin cfg0.N) (i : S32x2048.Idx) :
    i ∈ ((cfg0.win 4).blk t).view.set ↔ ∀ a : Fin 2, win0_4.index t a * S32x256.size a ≤ (i a).val ∧ (i a).val < win0_4.index t a * S32x256.size a + S32x256.size a := by
  show i ∈ ((View.whole main_v0_0).slice (win0_4.rect t)).set ↔ _
  rw [View.set_slice_whole, Rect.mem_set_unit]
  exact Iff.rfl

theorem mem_blk_dw (t : Fin cfg0.N) (i : S2048x2048.Idx) :
    i ∈ ((cfg0.win 5).blk t).view.set ↔ ∀ a : Fin 2, win0_5.index t a * S256x2048.size a ≤ (i a).val ∧ (i a).val < win0_5.index t a * S256x2048.size a + S256x2048.size a := by
  show i ∈ ((View.whole main_v0_1).slice (win0_5.rect t)).set ↔ _
  rw [View.set_slice_whole, Rect.mem_set_unit]
  exact Iff.rfl

/-- Every column block of the spike array is some point's. -/
theorem idx_onto_spike : ∀ q : Fin 8, ∃ t : Fin cfg0.N, win0_4.index t = ![0, q.val] :=
  (by decide +kernel : ∀ q : Fin 8, ∃ t : Fin grid0.N, win0_4.index t = ![0, q.val])

/-- Every row block of the weight update is some point's. -/
theorem idx_onto_dw : ∀ q : Fin 8, ∃ t : Fin cfg0.N, win0_5.index t = ![q.val, 0] :=
  (by decide +kernel : ∀ q : Fin 8, ∃ t : Fin grid0.N, win0_5.index t = ![q.val, 0])

theorem cover_spike (i : S32x2048.Idx) : ∃ t : Fin cfg0.N, (cfg0.win 4).flush t = true ∧ i ∈ ((cfg0.win 4).blk t).view.set := by
  have hi0 : (i 0).val < 32 := (i 0).isLt
  have hi1 : (i 1).val < 2048 := (i 1).isLt
  obtain ⟨t, ht⟩ := idx_onto_spike ⟨(i 1).val / 256, by omega⟩
  have q0 : win0_4.index t (0 : Fin 2) = 0 := congrFun ht 0
  have q1 : win0_4.index t (1 : Fin 2) = (i 1).val / 256 := congrFun ht 1
  refine ⟨t, flush0_4 t, ?_⟩
  rw [mem_blk_spike]
  intro a
  match a with
  | ⟨0, _⟩ => show win0_4.index t (0 : Fin 2) * 32 ≤ (i 0).val ∧ (i 0).val < win0_4.index t (0 : Fin 2) * 32 + 32; omega
  | ⟨1, _⟩ => show win0_4.index t (1 : Fin 2) * 256 ≤ (i 1).val ∧ (i 1).val < win0_4.index t (1 : Fin 2) * 256 + 256; omega

theorem cover_dw (i : S2048x2048.Idx) : ∃ t : Fin cfg0.N, (cfg0.win 5).flush t = true ∧ i ∈ ((cfg0.win 5).blk t).view.set := by
  have hi0 : (i 0).val < 2048 := (i 0).isLt
  have hi1 : (i 1).val < 2048 := (i 1).isLt
  obtain ⟨t, ht⟩ := idx_onto_dw ⟨(i 0).val / 256, by omega⟩
  have q0 : win0_5.index t (0 : Fin 2) = (i 0).val / 256 := congrFun ht 0
  have q1 : win0_5.index t (1 : Fin 2) = 0 := congrFun ht 1
  refine ⟨t, flush0_5 t, ?_⟩
  rw [mem_blk_dw]
  intro a
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 2048 ≤ (i 1).val ∧ (i 1).val < win0_5.index t (1 : Fin 2) * 2048 + 2048; omega

/-! ## The arrays after the run -/

theorem final_spike (c : Dev nD) :
    (dats m 0 c).arrAt 4 cfg0.N = spikeArr (m ((c : Thread nD τ).loc main_arg0)) (m ((c : Thread nD τ).loc main_arg1)) :=
  (dats m 0 c).arrAt_eq_of_cover 4 (spikeArr (V m c main_arg0) (V m c main_arg1)) (fun t _ => flushed_spike m c t) cover_spike

theorem final_dw (c : Dev nD) :
    (dats m 0 c).arrAt 5 cfg0.N = dwArr (m ((c : Thread nD τ).loc main_arg0)) (m ((c : Thread nD τ).loc main_arg1))
      (m ((c : Thread nD τ).loc main_arg2)) (m ((c : Thread nD τ).loc main_arg3)) :=
  (dats m 0 c).arrAt_eq_of_cover 5 (dwArr (V m c main_arg0) (V m c main_arg1) (V m c main_arg2) (V m c main_arg3))
    (fun t _ => flushed_dw m c t) cover_dw

/-- The kernel's run: the first output ends at the spike array and the second at the factored weight update of the
    argument arrays, which end unchanged. -/
theorem run : θ_run defs (onTc (τ := τ) (main (F := Ideal))) ⟨m, fun _ => 0, ρ⟩ fun r => ∀ c : Dev nD,
      r.2.mem ((c : Thread nD τ).loc main_v0_0) = spikeArr (m ((c : Thread nD τ).loc main_arg0)) (m ((c : Thread nD τ).loc main_arg1))
      ∧ r.2.mem ((c : Thread nD τ).loc main_v0_1) = dwArr (m ((c : Thread nD τ).loc main_arg0)) (m ((c : Thread nD τ).loc main_arg1))
          (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_spike m c), (h c).2.1.trans (final_dw m c), (h c).2.2⟩)
    (run_blocks m ρ)

end Cert.Stdp.Blocks

end
-- ==== Proof.Finite.lean ====
/-
  The precondition read back: when the conjunction of the four tests "every entry's absolute value is below +∞" is
  true, every entry of every argument array is a real number.
-/
import proofs.«116546_j22308060135454_1_alg».proof.Pre_finite_inputs
import proofs.«116546_j22308060135454_1_alg».proof.Proof.LibRealValued
import Idealize.ShloMosaic.Lib.ReduceAll
import Idealize.ShloMosaic.Lib.ValueIdx
import Idealize.ShloMosaic.Lib.Pipeline.Value

noncomputable section

namespace Cert.Stdp.Finite

open Idealize.ShloMosaic Cert.RealValued Cert.Pre_finite_inputs

instance : Subsingleton S_.Idx := ⟨fun a b => funext fun d => d.elim0⟩

/-- An extended real whose absolute value compares below the pattern of +∞ is a real number. -/
theorem isReal_of_abs_lt_inf (a : EReal)
    (h : FloatOps.cmpf (F := Ideal) (φ := .f32) .olt (FloatOps.hostAbsf (F := Ideal) (φ := .f32) a) (Ideal.ofBits .f32 0x7F800000#32) = 1#1) :
    IsReal a := by
  have htop : Ideal.ofBits .f32 0x7F800000#32 = ⊤ := by simp [Ideal.ofBits, Ideal.ieee]
  rw [htop] at h
  have hlt : max a (-a) < ⊤ := by
    by_contra hn
    have : FloatOps.cmpf (F := Ideal) (φ := .f32) .olt (FloatOps.hostAbsf (F := Ideal) (φ := .f32) a) ⊤ = 0#1 := by
      show BitVec.ofBool (decide (max a (-a) < ⊤)) = 0#1
      rw [decide_eq_false hn]; rfl
    rw [this] at h
    exact absurd h (by decide)
  induction a using EReal.rec with
  | bot => exact absurd hlt (by simp)
  | coe r => exact ⟨r, rfl⟩
  | top => exact absurd hlt (by simp)

/-- The test at one index: the entry's absolute value compared below the broadcast pattern of +∞. -/
theorem isReal_of_test {S : Shape} (x : FVec Ideal S .f32) (hb : S_.BroadcastsInDim S (![] : Fin 0 → Fin S.rank)) (i : S.Idx)
    (hi : cmpf .olt (Host.absf x) (broadcastInDim S ![] hb (constant S_ .f32 0x7F800000#32)) i = 1#1) : IsReal (x i) := by
  rw [ValueIdx.cmpf_apply, broadcastInDim_apply _ hb _ i ValueIdx.ix0 (fun a => a.elim0)] at hi
  exact isReal_of_abs_lt_inf _ hi

variable [Cert.Pre_finite_inputs.Facts]

theorem inputs_real (x0 : FVec Ideal S32x2048 .f32) (x1 : FVec Ideal S2048x2048 .f32) (x2 x3 : FVec Ideal S32x2048 .f32)
    (h : fn (F := Ideal) x0 x1 x2 x3 = fun _ => 1#1) :
    (∀ i, IsReal (x0 i)) ∧ (∀ i, IsReal (x1 i)) ∧ (∀ i, IsReal (x2 i)) ∧ (∀ i, IsReal (x3 i)) := by
  have h0 := congrFun h ValueIdx.ix0
  dsimp only [fn, fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨fun i => isReal_of_test x0 _ i (Host.reduce_andi_all _ _ _ _ _ h0' i),
    fun i => isReal_of_test x1 _ i (Host.reduce_andi_all _ _ _ _ _ h1 i),
    fun i => isReal_of_test x2 _ i (Host.reduce_andi_all _ _ _ _ _ h2 i),
    fun i => isReal_of_test x3 _ i (Host.reduce_andi_all _ _ _ _ _ h3 i)⟩

end Cert.Stdp.Finite

end
-- ==== Proof.lean ====
/-
  A spike-timing weight update: kernel against reference, over the extended reals.

  From `x` [32, 2048], the weight `W` [2048, 2048] and the two traces [32, 2048], both programs return the spikes
  `[∑ₖ x[b,k] · W[j,k] ≥ 1]` and the weight update. The kernel computes 256 post neurons at each of 8 grid points and
  forms the update FACTORED, `clamp W · (P - D)` with `P = ∑_b spike · pre'` and `D = ∑_b post' · x`; the reference
  works on whole arrays and forms it EXPANDED, `(-clamp W) · D + clamp W · P`.

  The spikes agree without any hypothesis: both sides are one sum, compared with 1 and converted. The updates agree
  by the distributive law, which holds on the extended reals only when `clamp W`, `P` and `D` are real numbers; that
  is what the precondition (all inputs finite) gives, since the traces' decay, the spikes, and finite sums of products
  of reals are real.

  Parts: Spec (the rule index by index, and the law), RefIsSpec (the reference, operation by operation), KernelPayload
  (the kernel body's two stored blocks at an index), KernelBlocks (from the 8 points' blocks to the two arrays), Finite
  (the precondition read back), LibRealValued (real values among the extended reals).
-/
import proofs.«116546_j22308060135454_1_alg».proof.Defs
import proofs.«116546_j22308060135454_1_alg».proof.Proof.Gen.Kernel
import proofs.«116546_j22308060135454_1_alg».proof.Proof.Gen.Kernel.Skeleton
import proofs.«116546_j22308060135454_1_alg».proof.Proof.Gen.Kernel.Launch
import proofs.«116546_j22308060135454_1_alg».proof.Proof.Gen.Kernel.Points
import proofs.«116546_j22308060135454_1_alg».proof.Proof.Gen.Kernel.Frame
import proofs.«116546_j22308060135454_1_alg».proof.Proof.Gen.KernelIdeal
import proofs.«116546_j22308060135454_1_alg».proof.Proof.Gen.KernelIdeal.Skeleton
import proofs.«116546_j22308060135454_1_alg».proof.Proof.Gen.KernelIdeal.Launch
import proofs.«116546_j22308060135454_1_alg».proof.Proof.Gen.KernelIdeal.Points
import proofs.«116546_j22308060135454_1_alg».proof.Proof.Gen.KernelIdeal.Frame
import proofs.«116546_j22308060135454_1_alg».proof.Proof.Gen.ReferenceIdeal
import proofs.«116546_j22308060135454_1_alg».proof.Proof.Gen.Pre_finite_inputs
import proofs.«116546_j22308060135454_1_alg».proof.Proof.Gen.KernelIdeal.Value
import proofs.«116546_j22308060135454_1_alg».proof.Proof.Gen.ReferenceIdeal.Run
import proofs.«116546_j22308060135454_1_alg».proof.Proof.Gen.ReferenceIdeal.Read
import proofs.«116546_j22308060135454_1_alg».proof.Proof.Spec
import proofs.«116546_j22308060135454_1_alg».proof.Proof.RefIsSpec
import proofs.«116546_j22308060135454_1_alg».proof.Proof.KernelBlocks
import proofs.«116546_j22308060135454_1_alg».proof.Proof.Finite
import Idealize.ShloMosaic.Adequacy
import Idealize.ShloMosaic.Init

noncomputable section

namespace Cert.Proof

open Idealize.ShloMosaic Idealize.SL.Sem

/-- The word-level kernel runs and leaves its arguments alone. -/
theorem frame_kernel : Cert.frame_Kernel := fun m ρ _ => Cert.Kernel.Gen.frame m ρ

/-- So does the kernel over the extended reals. -/
theorem frame_kernelIdeal : Cert.frame_KernelIdeal := fun m ρ _ => Cert.KernelIdeal.Gen.frame m ρ

/-- The reference runs and leaves its arguments alone: its run, the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Nothing was rewritten between the kernel and its reading over the extended reals. -/
theorem preserves : Cert.preserves_Kernel_KernelIdeal := trivial

/-- From memories that agree on finite arguments, the kernel ends at the spike array and the factored update of its
    arguments, the reference at the spike array and the expanded update of its own: the same arrays, by the law. -/
theorem algebraic : Cert.algebraic_KernelIdeal_ReferenceIdeal := by
  intro m ρ m' ρ' hpre hagree
  refine ⟨_, _, Cert.Stdp.Blocks.run m ρ, ?_⟩
  refine (θ_run Cert.ReferenceIdeal.defs _ _).mono (fun _ h c => ?_) (Cert.ReferenceIdeal.Value.run (F := Ideal) m' ρ')
  obtain ⟨hx, hW, hp, hq⟩ := Cert.Stdp.Finite.inputs_real _ _ _ _ (hpre c)
  refine ⟨(h c).1.trans ?_, (h c).2.1.trans ?_, (h c).2.2⟩
  · rw [Cert.ReferenceIdeal.Read.val_main_v4_eq, Cert.Stdp.Ref.spike_result, (hagree c).1, (hagree c).2.1]
  · rw [Cert.ReferenceIdeal.Read.val_main_v19_eq, Cert.Stdp.Ref.dw_result, (hagree c).1, (hagree c).2.1, (hagree c).2.2.1,
      (hagree c).2.2.2]
    exact Cert.Stdp.dwArrExpanded_eq_dwArr hx hW hp hq

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
